-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x64 : Shape := ⟨2, ![100000, 64]⟩
abbrev S10000x64 : Shape := ⟨2, ![10000, 64]⟩
abbrev S3300000x64 : Shape := ⟨2, ![3300000, 64]⟩
abbrev S1x64 : Shape := ⟨2, ![1, 64]⟩

abbrev nBuf : Space → Nat
  | .hbm => 82
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x64, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x64, .f32⟩
  | .hbm, ⟨74, _⟩ => ⟨S3300000x64, .f32⟩
  | .hbm, ⟨75, _⟩ => ⟨S3300000x64, .f32⟩
  | .hbm, ⟨76, _⟩ => ⟨S_, .f32⟩
  | .hbm, ⟨77, _⟩ => ⟨S100000x64, .f32⟩
  | .hbm, ⟨78, _⟩ => ⟨S3300000x1, .i32⟩
  | .hbm, ⟨79, _⟩ => ⟨S100000x64, .f32⟩
  | .hbm, ⟨80, _⟩ => ⟨S1x64, .f32⟩
  | .hbm, ⟨81, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x64_S16x64_0_0 : ∀ a, (![0, 0] : Fin 2 → Nat) a + S16x64.size a ≤ S16x64.size a
  h_S16x64 : 0 < S16x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x64_S10000x64_1_0_0_1_n_n_wf : DotDims.WF S10000x16 S16x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x64 : Shape := ⟨2, ![16, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x64, .f32⟩
  | .hbm, ⟨70, _⟩ => ⟨S_, .f32⟩
  | .hbm, ⟨71, _⟩ => ⟨S3300000, .f32⟩
  | .hbm, ⟨72, _⟩ => ⟨S_, .f32⟩
  | .hbm, ⟨73, _⟩ => ⟨S100000, .f32⟩
  | .hbm, ⟨74, _⟩ => ⟨S3300000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S3300000, .i32⟩
  | .hbm, ⟨86, _⟩ => ⟨S3300000, .i1⟩
  | .hbm, ⟨87, _⟩ => ⟨S_, .i32⟩
  | .hbm, ⟨88, _⟩ => ⟨S3300000, .i32⟩
  | .hbm, ⟨89, _⟩ => ⟨S3300000, .i32⟩
  | .hbm, ⟨90, _⟩ => ⟨S3300000, .i32⟩
  | .hbm, ⟨91, _⟩ => ⟨S3300000x1, .i32⟩
  | .hbm, ⟨92, _⟩ => ⟨S3300000, .f32⟩
  | .hbm, ⟨93, _⟩ => ⟨S_, .i32⟩
  | .hbm, ⟨94, _⟩ => ⟨S3300000, .i32⟩
  | .hbm, ⟨95, _⟩ => ⟨S3300000, .i1⟩
  | .hbm, ⟨96, _⟩ => ⟨S_, .i32⟩
  | .hbm, ⟨97, _⟩ => ⟨S3300000, .i32⟩
  | .hbm, ⟨98, _⟩ => ⟨S3300000, .i32⟩
  | .hbm, ⟨99, _⟩ => ⟨S3300000, .i32⟩
  | .hbm, ⟨100, _⟩ => ⟨S3300000x1, .i32⟩
  | .hbm, ⟨101, _⟩ => ⟨S3300000, .f32⟩
  | .hbm, ⟨102, _⟩ => ⟨S3300000, .f32⟩
  | .hbm, ⟨103, _⟩ => ⟨S_, .i32⟩
  | .hbm, ⟨104, _⟩ => ⟨S3300000, .i32⟩
  | .hbm, ⟨105, _⟩ => ⟨S3300000, .i1⟩
  | .hbm, ⟨106, _⟩ => ⟨S_, .i32⟩
  | .hbm, ⟨107, _⟩ => ⟨S3300000, .i32⟩
  | .hbm, ⟨108, _⟩ => ⟨S3300000, .i32⟩
  | .hbm, ⟨109, _⟩ => ⟨S3300000, .i32⟩
  | .hbm, ⟨110, _⟩ => ⟨S3300000x1, .i32⟩
  | .hbm, ⟨111, _⟩ => ⟨S3300000x64, .f32⟩
  | .hbm, ⟨112, _⟩ => ⟨S3300000x1, .f32⟩
  | .hbm, ⟨113, _⟩ => ⟨S3300000x64, .f32⟩
  | .hbm, ⟨114, _⟩ => ⟨S3300000x64, .f32⟩
  | .hbm, ⟨115, _⟩ => ⟨S_, .f32⟩
  | .hbm, ⟨116, _⟩ => ⟨S100000x64, .f32⟩
  | .hbm, ⟨117, _⟩ => ⟨S3300000x1, .i32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.HostChain.lean ====
/-
  The host operations of the idealized kernel program, stretch by stretch, read as values — each at ANY contents `W` of
  the TensorCore's buffers when the stretch begins, and written in the vocabulary of the reference's own stages
  (`val_main_vN`), because both programs apply the same host operations to the same edge list.
  Before the first region: the edge sources and targets with the self loops appended (`val_main_v3`, `val_main_v6`),
  the in-degree d by a scatter-add of ones, whether d > 0, d^(-1/2), the selection between that and zero
  (`val_main_v15`), and the edge weight d⁻¹ᐟ²[src] · d⁻¹ᐟ²[dst] as a column (`val_main_v38`). Between the regions: the
  messages of layer one — the rows of the projected features gathered at the sources, times the edge weight — summed
  into their targets (`val_main_v43`), and the same for layer two (`val_main_v84`); and each bias vector reshaped to
  a row. The reference computes the degree and the edge weight a second time for its second layer; the two
  computations are one term, which the last lemmas use. A buffer that a stretch does not write keeps its contents.
-/
import proofs.«133958_j19550691131664_1_alg».proof.Proof.Gen.KernelIdeal.Frame
import proofs.«133958_j19550691131664_1_alg».proof.Proof.RefRead
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem
open Idealize.ShloMosaic.StableHlo
open Cert.ReferenceIdeal.ReadP

variable {F : FTy → Type} [FloatOps F]

/-! ## Before the first region: the edge list, the degree, the edge weight -/

/-- The sources: row 0 of the edge list, then the node numbers (the self loops). -/
theorem sources (W : Valuation τ sig (Elt F)) :
    StableHlo.after hostOps0 W (Proc.devRef .tc main_v3) = val_main_v3 (F := F) (W (Proc.devRef .tc main_arg1)) := by
  after_results; rfl

/-- The targets: row 1 of the edge list, then the node numbers. -/
theorem targets (W : Valuation τ sig (Elt F)) :
    StableHlo.after hostOps0 W (Proc.devRef .tc main_v6) = val_main_v6 (F := F) (W (Proc.devRef .tc main_arg1)) := by
  after_results; rfl

set_option maxHeartbeats 1000000 in
/-- Whether a node's in-degree (a scatter-add of ones into the targets) is positive. -/
theorem degree_pos (W : Valuation τ sig (Elt F)) :
    StableHlo.after hostOps0 W (Proc.devRef .tc main_v12) = val_main_v13 (F := F) (W (Proc.devRef .tc main_arg1)) := by
  after_results; rfl

set_option maxHeartbeats 1000000 in
/-- The in-degree to the power -1/2. -/
theorem degree_rsqrt (W : Valuation τ sig (Elt F)) :
    StableHlo.after hostOps0 W (Proc.devRef .tc main_v13) = val_main_v14 (F := F) (W (Proc.devRef .tc main_arg1)) := by
  after_results; rfl

/-- The zero the selection falls back to. -/
theorem fallback (W : Valuation τ sig (Elt F)) :
    StableHlo.after hostOps0 W (Proc.devRef .tc main_cst_2) = val_main_cst_2 (F := F) := by
  after_results; rfl

/-- d^(-1/2) where the degree is positive, zero elsewhere — from the three values the selection reads. -/
theorem inv_sqrt_degree (W : Valuation τ sig (Elt F)) (e : (⟨Cert.ReferenceIdeal.S2x3200000, .i32⟩ : BufTy).Contents (Elt F))
    (hpos : W (Proc.devRef .tc main_v12) = val_main_v13 (F := F) e)
    (hrs : W (Proc.devRef .tc main_v13) = val_main_v14 (F := F) e)
    (hz : W (Proc.devRef .tc main_cst_2) = val_main_cst_2 (F := F)) :
    StableHlo.after hostOps0_1 W (Proc.devRef .tc main_v14) = val_main_v15 (F := F) e := by
  after_results
  simp only [TRef.ofBuf, TRef.toBuf, cast_eq]
  rw [hpos, hrs, hz]
  rfl

set_option maxHeartbeats 2000000 in
/-- The edge weight d⁻¹ᐟ²[src] · d⁻¹ᐟ²[dst], as a column — from d⁻¹ᐟ², the sources and the targets. -/
theorem edge_weight (W : Valuation τ sig (Elt F)) (e : (⟨Cert.ReferenceIdeal.S2x3200000, .i32⟩ : BufTy).Contents (Elt F))
    (hd : W (Proc.devRef .tc main_v14) = val_main_v15 (F := F) e)
    (hs : W (Proc.devRef .tc main_v3) = val_main_v3 (F := F) e)
    (ht : W (Proc.devRef .tc main_v6) = val_main_v6 (F := F) e) :
    StableHlo.after hostOps0_2 W (Proc.devRef .tc main_v30) = val_main_v38 (F := F) e := by
  after_results_simp
  rw [hd, hs, ht]
  rfl

/-! ## Between the regions: gather at the sources, weigh, add into the targets; a bias as a row -/

set_option maxHeartbeats 2000000 in
/-- Layer one's aggregation, from the projected features, the sources, the targets and the edge weight. -/
theorem aggregate16 (W : Valuation τ sig (Elt F)) (x : (⟨Cert.ReferenceIdeal.S100000x128, .f32⟩ : BufTy).Contents (Elt F))
    (e : (⟨Cert.ReferenceIdeal.S2x3200000, .i32⟩ : BufTy).Contents (Elt F)) (w1 : (⟨Cert.ReferenceIdeal.S128x16, .f32⟩ : BufTy).Contents (Elt F))
    (hh : W (Proc.devRef .tc main_v31) = val_main_v7 (F := F) x w1)
    (hs : W (Proc.devRef .tc main_v3) = val_main_v3 (F := F) e)
    (ht : W (Proc.devRef .tc main_v6) = val_main_v6 (F := F) e)
    (hw : W (Proc.devRef .tc main_v30) = val_main_v38 (F := F) e) :
    StableHlo.after hostOps1 W (Proc.devRef .tc main_v43) = val_main_v43 (F := F) x e w1 := by
  after_results_simp
  rw [hh, hs, ht, hw]
  rfl

/-- The first bias vector as a 1 × 16 row. -/
theorem bias_row16 (W : Valuation τ sig (Elt F)) :
    StableHlo.after hostOps1 W (Proc.devRef .tc main_v44)
      = shapeCast S1x16 (W (Proc.devRef .tc main_arg3)) shapeCasts_S16_S1x16 := by
  after_results_simp
  rfl

set_option maxHeartbeats 4000000 in
/-- Layer two's aggregation, from the hidden features, the sources, the targets and the edge weight. -/
theorem aggregate64 (W : Valuation τ sig (Elt F)) (x : (⟨Cert.ReferenceIdeal.S100000x128, .f32⟩ : BufTy).Contents (Elt F))
    (e : (⟨Cert.ReferenceIdeal.S2x3200000, .i32⟩ : BufTy).Contents (Elt F)) (w1 : (⟨Cert.ReferenceIdeal.S128x16, .f32⟩ : BufTy).Contents (Elt F))
    (b1 : (⟨Cert.ReferenceIdeal.S16, .f32⟩ : BufTy).Contents (Elt F)) (w2 : (⟨Cert.ReferenceIdeal.S16x64, .f32⟩ : BufTy).Contents (Elt F))
    (hh : W (Proc.devRef .tc main_v45) = val_main_v48 (F := F) x e w1 b1 w2)
    (hs : W (Proc.devRef .tc main_v3) = val_main_v3 (F := F) e)
    (ht : W (Proc.devRef .tc main_v6) = val_main_v6 (F := F) e)
    (hw : W (Proc.devRef .tc main_v30) = val_main_v38 (F := F) e) :
    StableHlo.after hostOps2 W (Proc.devRef .tc main_v57) = val_main_v84 (F := F) x e w1 b1 w2 := by
  after_results_simp
  rw [hh, hs, ht, hw]
  rfl

/-- The second bias vector as a 1 × 64 row. -/
theorem bias_row64 (W : Valuation τ sig (Elt F)) :
    StableHlo.after hostOps2 W (Proc.devRef .tc main_v58)
      = shapeCast S1x64 (W (Proc.devRef .tc main_arg5)) shapeCasts_S64_S1x64 := by
  after_results_simp
  rfl

/-! ## What a stretch does not write, it keeps -/

/-- `hostOps0` does not write `main_arg0`. -/
theorem keep_0_arg0 (W : Valuation τ sig (Elt F)) :
    StableHlo.after hostOps0 W (Proc.devRef .tc main_arg0) = W (Proc.devRef .tc main_arg0) := by
  after_results_simp

/-- `hostOps0` does not write `main_arg2`. -/
theorem keep_0_arg2 (W : Valuation τ sig (Elt F)) :
    StableHlo.after hostOps0 W (Proc.devRef .tc main_arg2) = W (Proc.devRef .tc main_arg2) := by
  after_results_simp

/-- `hostOps0` does not write `main_arg3`. -/
theorem keep_0_arg3 (W : Valuation τ sig (Elt F)) :
    StableHlo.after hostOps0 W (Proc.devRef .tc main_arg3) = W (Proc.devRef .tc main_arg3) := by
  after_results_simp

/-- `hostOps0` does not write `main_arg4`. -/
theorem keep_0_arg4 (W : Valuation τ sig (Elt F)) :
    StableHlo.after hostOps0 W (Proc.devRef .tc main_arg4) = W (Proc.devRef .tc main_arg4) := by
  after_results_simp

/-- `hostOps0` does not write `main_arg5`. -/
theorem keep_0_arg5 (W : Valuation τ sig (Elt F)) :
    StableHlo.after hostOps0 W (Proc.devRef .tc main_arg5) = W (Proc.devRef .tc main_arg5) := by
  after_results_simp

/-- `hostOps0` does not write `main_arg1`. -/
theorem keep_0_arg1 (W : Valuation τ sig (Elt F)) :
    StableHlo.after hostOps0 W (Proc.devRef .tc main_arg1) = W (Proc.devRef .tc main_arg1) := by
  after_results_simp

/-- `hostOps0_1` does not write `main_arg0`. -/
theorem keep_0_1_arg0 (W : Valuation τ sig (Elt F)) :
    StableHlo.after hostOps0_1 W (Proc.devRef .tc main_arg0) = W (Proc.devRef .tc main_arg0) := by
  after_results_simp

/-- `hostOps0_1` does not write `main_arg2`. -/
theorem keep_0_1_arg2 (W : Valuation τ sig (Elt F)) :
    StableHlo.after hostOps0_1 W (Proc.devRef .tc main_arg2) = W (Proc.devRef .tc main_arg2) := by
  after_results_simp

/-- `hostOps0_1` does not write `main_arg3`. -/
theorem keep_0_1_arg3 (W : Valuation τ sig (Elt F)) :
    StableHlo.after hostOps0_1 W (Proc.devRef .tc main_arg3) = W (Proc.devRef .tc main_arg3) := by
  after_results_simp

/-- `hostOps0_1` does not write `main_arg4`. -/
theorem keep_0_1_arg4 (W : Valuation τ sig (Elt F)) :
    StableHlo.after hostOps0_1 W (Proc.devRef .tc main_arg4) = W (Proc.devRef .tc main_arg4) := by
  after_results_simp

/-- `hostOps0_1` does not write `main_arg5`. -/
theorem keep_0_1_arg5 (W : Valuation τ sig (Elt F)) :
    StableHlo.after hostOps0_1 W (Proc.devRef .tc main_arg5) = W (Proc.devRef .tc main_arg5) := by
  after_results_simp

/-- `hostOps0_1` does not write `main_v3`. -/
theorem keep_0_1_v3 (W : Valuation τ sig (Elt F)) :
    StableHlo.after hostOps0_1 W (Proc.devRef .tc main_v3) = W (Proc.devRef .tc main_v3) := by
  after_results_simp

/-- `hostOps0_1` does not write `main_v6`. -/
theorem keep_0_1_v6 (W : Valuation τ sig (Elt F)) :
    StableHlo.after hostOps0_1 W (Proc.devRef .tc main_v6) = W (Proc.devRef .tc main_v6) := by
  after_results_simp

/-- `hostOps0_2` does not write `main_arg0`. -/
theorem keep_0_2_arg0 (W : Valuation τ sig (Elt F)) :
    StableHlo.after hostOps0_2 W (Proc.devRef .tc main_arg0) = W (Proc.devRef .tc main_arg0) := by
  after_results_simp

/-- `hostOps0_2` does not write `main_arg2`. -/
theorem keep_0_2_arg2 (W : Valuation τ sig (Elt F)) :
    StableHlo.after hostOps0_2 W (Proc.devRef .tc main_arg2) = W (Proc.devRef .tc main_arg2) := by
  after_results_simp

/-- `hostOps0_2` does not write `main_arg3`. -/
theorem keep_0_2_arg3 (W : Valuation τ sig (Elt F)) :
    StableHlo.after hostOps0_2 W (Proc.devRef .tc main_arg3) = W (Proc.devRef .tc main_arg3) := by
  after_results_simp

/-- `hostOps0_2` does not write `main_arg4`. -/
theorem keep_0_2_arg4 (W : Valuation τ sig (Elt F)) :
    StableHlo.after hostOps0_2 W (Proc.devRef .tc main_arg4) = W (Proc.devRef .tc main_arg4) := by
  after_results_simp

/-- `hostOps0_2` does not write `main_arg5`. -/
theorem keep_0_2_arg5 (W : Valuation τ sig (Elt F)) :
    StableHlo.after hostOps0_2 W (Proc.devRef .tc main_arg5) = W (Proc.devRef .tc main_arg5) := by
  after_results_simp

/-- `hostOps0_2` does not write `main_v3`. -/
theorem keep_0_2_v3 (W : Valuation τ sig (Elt F)) :
    StableHlo.after hostOps0_2 W (Proc.devRef .tc main_v3) = W (Proc.devRef .tc main_v3) := by
  after_results_simp

/-- `hostOps0_2` does not write `main_v6`. -/
theorem keep_0_2_v6 (W : Valuation τ sig (Elt F)) :
    StableHlo.after hostOps0_2 W (Proc.devRef .tc main_v6) = W (Proc.devRef .tc main_v6) := by
  after_results_simp

/-- `hostOps1` does not write `main_arg4`. -/
theorem keep_1_arg4 (W : Valuation τ sig (Elt F)) :
    StableHlo.after hostOps1 W (Proc.devRef .tc main_arg4) = W (Proc.devRef .tc main_arg4) := by
  after_results_simp

/-- `hostOps1` does not write `main_arg5`. -/
theorem keep_1_arg5 (W : Valuation τ sig (Elt F)) :
    StableHlo.after hostOps1 W (Proc.devRef .tc main_arg5) = W (Proc.devRef .tc main_arg5) := by
  after_results_simp

/-- `hostOps1` does not write `main_v3`. -/
theorem keep_1_v3 (W : Valuation τ sig (Elt F)) :
    StableHlo.after hostOps1 W (Proc.devRef .tc main_v3) = W (Proc.devRef .tc main_v3) := by
  after_results_simp

/-- `hostOps1` does not write `main_v6`. -/
theorem keep_1_v6 (W : Valuation τ sig (Elt F)) :
    StableHlo.after hostOps1 W (Proc.devRef .tc main_v6) = W (Proc.devRef .tc main_v6) := by
  after_results_simp

/-- `hostOps1` does not write `main_v30`. -/
theorem keep_1_v30 (W : Valuation τ sig (Elt F)) :
    StableHlo.after hostOps1 W (Proc.devRef .tc main_v30) = W (Proc.devRef .tc main_v30) := by
  after_results_simp

end Cert.KernelIdeal.HostChain

end
-- ==== Proof.Spec.lean ====
/-
  The three dense stages of a two-layer graph convolution, each as ONE whole-array function over the extended reals.
  Write N = 100000 nodes. `proj x w` is the product of the node features x (N × 128) with a weight matrix w
  (128 × 16): entry (n, j) is the sum over k of x[n,k] · w[k,j]. `hidden a b w` adds the bias row b (1 × 16) to the
  aggregated messages a (N × 16), clamps below at zero, and multiplies by w (16 × 64): entry (n, j) is the sum over
  k of max(a[n,k] + b[0,k], 0) · w[k,j]. `biased a b` adds the bias row b (1 × 64) to a (N × 64) entrywise.
  Each is stated at explicit coordinates first (`…At`, over literal `Fin` types) and then at an index.
-/
import proofs.«133958_j19550691131664_1_alg».proof.KernelIdeal
import Idealize.ShloMosaic.Lib.ValueIdx
import Idealize.ShloMosaic.PureOps.Ideal.Laws

noncomputable section

namespace Cert.Gcn

open Idealize.ShloMosaic Idealize.ShloMosaic.ValueIdx Cert.KernelIdeal

/-- Row `n` of `x` against column `j` of `w`. -/
def projAt (x : Vec Ideal S100000x128 .f32) (w : Vec Ideal S128x16 .f32) (n : Fin 100000) (j : Fin 16) : EReal :=
  ∑ k : Fin 128, x (ix2 n k) * w (ix2 k j)

/-- The node features times the first weight matrix. -/
def proj (x : Vec Ideal S100000x128 .f32) (w : Vec Ideal S128x16 .f32) : Vec Ideal S100000x16 .f32 :=
  fun i => projAt x w (i 0) (i 1)

theorem proj_ix2 (x : Vec Ideal S100000x128 .f32) (w : Vec Ideal S128x16 .f32) (n : Fin 100000) (j : Fin 16) :
    proj x w (ix2 n j) = projAt x w n j := rfl

/-- Row `n` of max(a + b, 0) against column `j` of `w`. -/
def hiddenAt (a : Vec Ideal S100000x16 .f32) (b : Vec Ideal S1x16 .f32) (w : Vec Ideal S16x64 .f32)
    (n : Fin 100000) (j : Fin 64) : EReal :=
  ∑ k : Fin 16, max (a (ix2 n k) + b (ix2 (0 : Fin 1) k)) 0 * w (ix2 k j)

/-- Bias, clamp at zero, second weight matrix. -/
def hidden (a : Vec Ideal S100000x16 .f32) (b : Vec Ideal S1x16 .f32) (w : Vec Ideal S16x64 .f32) :
    Vec Ideal S100000x64 .f32 :=
  fun i => hiddenAt a b w (i 0) (i 1)

theorem hidden_ix2 (a : Vec Ideal S100000x16 .f32) (b : Vec Ideal S1x16 .f32) (w : Vec Ideal S16x64 .f32)
    (n : Fin 100000) (j : Fin 64) : hidden a b w (ix2 n j) = hiddenAt a b w n j := rfl

/-- Entry (n, j) of `a` plus entry j of the bias row. -/
def biasedAt (a : Vec Ideal S100000x64 .f32) (b : Vec Ideal S1x64 .f32) (n : Fin 100000) (j : Fin 64) : EReal :=
  a (ix2 n j) + b (ix2 (0 : Fin 1) j)

/-- The final bias add. -/
def biased (a : Vec Ideal S100000x64 .f32) (b : Vec Ideal S1x64 .f32) : Vec Ideal S100000x64 .f32 :=
  fun i => biasedAt a b (i 0) (i 1)

theorem biased_ix2 (a : Vec Ideal S100000x64 .f32) (b : Vec Ideal S1x64 .f32) (n : Fin 100000) (j : Fin 64) :
    biased a b (ix2 n j) = biasedAt a b n j := rfl

end Cert.Gcn

end
-- ==== Proof.Region0.lean ====
/-
  The first pallas_call, read as a value. Its grid has ten points; point t stages rows 10000·t … 10000·t + 9999 of the
  node features (all 128 columns) and the whole 128 × 16 weight matrix, multiplies them into a zero accumulator, and writes
  the 10000 × 16 product back to the same rows of the result. So the result array after the region is `Gcn.proj` of the
  two input arrays as the region found them.
-/
import proofs.«133958_j19550691131664_1_alg».proof.Proof.Gen.KernelIdeal.Frame
import proofs.«133958_j19550691131664_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Projection

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The zero offsets of a whole-buffer access, however they are spelt. -/
theorem zero_off : (![0, 0] : Fin 2 → Nat) = fun _ => 0 := funext fun a => by fin_cases a <;> rfl

/-! ## The product at an index -/

theorem lhs_axis0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_axis1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem rhs_axis0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem rhs_axis1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- Entry (p, q) of a block's product: row p of the staged rows against column q of the weights. -/
theorem block_product (x0 : Vec Ideal S10000x128 .f32) (x1 : Vec Ideal S128x16 .f32) (p : Fin 10000) (q : Fin 16) :
    k0_pay1 x0 x1 (ix2 p q) = ∑ k : Fin 128, x0 (ix2 p k) * x1 (ix2 k q) := by
  unfold k0_pay1
  refine (Ideal.matmul_constant_zero_apply dot_S10000x128_S128x16_S10000x16_1_0_0_1_n_n none _ _ (ix2 p q)).trans ?_
  rw [← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 p q) ((contrEquiv1 dot_S10000x128_S128x16_S10000x16_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S10000x128_S128x16_S10000x16_1_0_0_1_n_n.rhsIdx (ix2 p q) ((contrEquiv1 dot_S10000x128_S128x16_S10000x16_1_0_0_1_n_n 128 rfl rfl).symm k) = ix2 k q := funext fun a => Fin.ext (by
    match a with
    | ⟨0, _⟩ => exact (rhs_axis0 _ _).trans hk
    | ⟨1, _⟩ => exact rhs_axis1 _ _)
  show x0 (dot_S10000x128_S128x16_S10000x16_1_0_0_1_n_n.lhsIdx (ix2 p q) _) * x1 (dot_S10000x128_S128x16_S10000x16_1_0_0_1_n_n.rhsIdx (ix2 p q) _) = _
  rw [el, er]

/-! ## Which block each point stages and writes -/

/-- The index maps over the ten points: the row-blocked windows sit at block (t, 0), the weights at block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the block of point t is row 10000·t + p of the array. -/
def rowOf (t : Fin cfg0.N) (p : Fin 10000) : Fin 100000 :=
  ⟨t.val * 10000 + p.val, by have h := t.isLt; have h10 : cfg0.N = 10 := N_0; have hp := p.isLt; omega⟩

/-- Point t's block of the node features: rows 10000·t …, every column. -/
theorem rows_staged (c : Dev nD) (t : Fin cfg0.N) (p : Fin 10000) (k : Fin 128) :
    iblk0 V c 0 t (ix2 p k) = V c main_arg0 (ix2 (rowOf t p) k) := by
  obtain ⟨e0, e1, -, -, -, -⟩ := block_index t
  show V c main_arg0 (((cfg0.win 0).blk t).view.emb (ix2 p k)) = V c main_arg0 (ix2 (rowOf t p) k)
  refine congrArg _ (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- Every point stages the whole weight matrix. -/
theorem weights_staged (c : Dev nD) (t : Fin cfg0.N) (k : Fin 128) (q : Fin 16) :
    iblk0 V c 1 t (ix2 k q) = V c main_arg2 (ix2 k q) := by
  obtain ⟨-, -, e2, e3, -, -⟩ := block_index t
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 16 + 1 * q.val = q.val; omega

/-- Entry (p, q) of point t's result block lands at row 10000·t + p, column q of the result. -/
theorem result_placed (t : Fin cfg0.N) (p : Fin 10000) (q : Fin 16) :
    ((cfg0.win 2).blk t).view.emb (ix2 p q) = (ix2 (rowOf t p) q : S100000x16.Idx) := by
  obtain ⟨-, -, -, -, e4, e5⟩ := block_index t
  refine funext fun a => Fin.ext ?_
  match a with
  | ⟨0, _⟩ => show win0_2.index t (0 : Fin 2) * 10000 + 1 * p.val = t.val * 10000 + p.val; omega
  | ⟨1, _⟩ => show win0_2.index t (1 : Fin 2) * 16 + 1 * q.val = q.val; omega

/-- What point t writes back is its block of the whole product. -/
theorem flushed_eq (c : Dev nD) (t : Fin cfg0.N) :
    (dat0 V c).flushed 2 t = ((cfg0.win 2).blk t).view.read (Elt Ideal) (Cert.Gcn.proj (V c main_arg0) (V c main_arg2)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x16) zero_off]
  funext j
  revert j
  show ∀ j : S10000x16.Idx, k0_pay1 (iblk0 V c 0 t) (iblk0 V c 1 t) j
      = Cert.Gcn.proj (V c main_arg0) (V c main_arg2) (((cfg0.win 2).blk t).view.emb j)
  intro j
  obtain ⟨p, q, rfl⟩ : ∃ (p : Fin 10000) (q : Fin 16), j = ix2 p q := ⟨j 0, j 1, eq_ix2 j⟩
  refine (block_product _ _ p q).trans ?_
  rw [result_placed t p q, Cert.Gcn.proj_ix2]
  unfold Cert.Gcn.projAt
  exact Finset.sum_congr rfl fun k _ => by rw [rows_staged V c t p k, weights_staged V c t k q]

/-! ## The blocks tile the result -/

/-- An index of the result is in point t's block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v31).slice (win0_2.rect t)).set ↔ _
  rw [View.set_slice_whole, Rect.mem_set_unit]
  exact Iff.rfl

/-- Every block row index is some point's. -/
theorem point_of_block : ∀ b : Fin 10, ∃ t : Fin cfg0.N, t.val = b.val :=
  fun b => ⟨⟨b.val, by have h10 : cfg0.N = 10 := N_0; have := b.isLt; omega⟩, rfl⟩

/-- Row r of the result is written by point r / 10000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := point_of_block ⟨(i 0).val / 10000, by omega⟩
  have ht' : t.val = (i 0).val / 10000 := ht
  obtain ⟨-, -, -, -, e4, e5⟩ := block_index t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- After the first region its result array is the product of the node features with the first weight matrix. -/
theorem projected (c : Dev nD) :
    (dat0 (F := Ideal) V c).arrAt 2 cfg0.N = (Cert.Gcn.proj (V c main_arg0) (V c main_arg2) : S100000x16.Idx → EReal) :=
  (dat0 V c).arrAt_eq_of_cover 2 (Cert.Gcn.proj (V c main_arg0) (V c main_arg2)) (fun t _ => flushed_eq V c t) covered

end Cert.KernelIdeal.Projection

end
-- ==== Proof.Region1.lean ====
/-
  The second pallas_call, read as a value. Point t of its ten stages rows 10000·t … 10000·t + 9999 of the aggregated
  messages (16 columns), the 1 × 16 bias row and the whole 16 × 64 weight matrix; the body adds the bias row to every row,
  clamps below at zero, multiplies by the weights into a zero accumulator and writes the 10000 × 64 product back to the same
  rows. So the result array after the region is `Gcn.hidden` of the three input arrays as the region found them.
-/
import proofs.«133958_j19550691131664_1_alg».proof.Proof.Gen.KernelIdeal.Frame
import proofs.«133958_j19550691131664_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Activation

open Cert.KernelIdeal Cert.KernelIdeal.Gen Idealize.ShloMosaic Idealize.ShloMosaic.TcCoe Idealize.SL.Sem
open Idealize.ShloMosaic.ValueIdx
open Idealize.ShloMosaic.Pipeline (Dat)

/-! ## The product's operand indices

The contraction runs over the one axis of length 16: at output entry (r, c) and contraction position k the left operand is
read at (r, k) and the right operand at (k, c). One fact per operand axis. -/

/-- The left operand's row is the output's row. -/
theorem lhs_row (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide),
    dif_pos (show (0 : Fin S10000x16.rank) ∈ dot_S10000x16_S16x64_S10000x64_1_0_0_1_n_n.lhsNonContracting by decide)]
  rfl

/-- The left operand's column is the contraction position. -/
theorem lhs_col (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q

/-- The right operand's row is the contraction position. -/
theorem rhs_row (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q

/-- The right operand's column is the output's column. -/
theorem rhs_col (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide),
    dif_pos (show (1 : Fin S16x64.rank) ∈ dot_S10000x16_S16x64_S10000x64_1_0_0_1_n_n.rhsNonContracting by decide)]
  rfl

/-! ## The body's stored value at an entry -/

/-- Entry (p, q) of what the body stores: the sum over k of max(x0[p,k] + x1[0,k], 0) · x2[k,q]. -/
theorem stored_apply (x0 : Vec Ideal S10000x16 .f32) (x1 : Vec Ideal S1x16 .f32) (x2 : Vec Ideal S16x64 .f32)
    (p : Fin 10000) (q : Fin 64) :
    k1_pay1 (F := Ideal) x0 x1 x2 (ix2 p q)
      = ∑ k : Fin 16, max (x0 (ix2 p k) + x1 (ix2 (0 : Fin 1) k)) 0 * x2 (ix2 k q) := by
  unfold k1_pay1
  refine (Ideal.matmul_constant_zero_apply dot_S10000x16_S16x64_S10000x64_1_0_0_1_n_n none _ _ (ix2 p q)).trans ?_
  rw [← Equiv.sum_comp (contrEquiv1 dot_S10000x16_S16x64_S10000x64_1_0_0_1_n_n 16 rfl rfl).symm]
  refine Finset.sum_congr rfl fun k _ => ?_
  have hk := contrEquiv1_symm_val dot_S10000x16_S16x64_S10000x64_1_0_0_1_n_n 16 rfl rfl k
  have el : dot_S10000x16_S16x64_S10000x64_1_0_0_1_n_n.lhsIdx (ix2 p q)
      ((contrEquiv1 dot_S10000x16_S16x64_S10000x64_1_0_0_1_n_n 16 rfl rfl).symm k) = ix2 p k :=
    funext fun a => Fin.ext (by
      match a with
      | ⟨0, _⟩ => exact lhs_row _ _
      | ⟨1, _⟩ => exact (lhs_col _ _).trans hk)
  have er : dot_S10000x16_S16x64_S10000x64_1_0_0_1_n_n.rhsIdx (ix2 p q)
      ((contrEquiv1 dot_S10000x16_S16x64_S10000x64_1_0_0_1_n_n 16 rfl rfl).symm k) = ix2 k q :=
    funext fun a => Fin.ext (by
      match a with
      | ⟨0, _⟩ => exact (rhs_row _ _).trans hk
      | ⟨1, _⟩ => exact rhs_col _ _)
  rw [el, er]
  show max (shapeCast S10000x16 x0 shapeCasts_S10000x16_S10000x16 (ix2 p k)
        + broadcastTo S10000x16 (shapeCast S1x16 x1 shapeCasts_S1x16_S1x16) broadcasts_S1x16_S10000x16 (ix2 p k))
      (Ideal.ofBits .f32 0x00000000#32) * x2 (ix2 k q) = _
  rw [shapeCast_self, shapeCast_self, broadcastTo_1b_ab_apply, Ideal.ofBits_zero_f32]

/-! ## Which block each point stages -/

/-- The index maps over the ten points: point t stages row-block t of the messages and of the result, and the one block of
    the bias row and of the weights. -/
theorem blocks_of_point : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem zero_offsets : (![0, 0] : Fin 2 → Nat) = fun _ => 0 := funext fun a => by fin_cases a <;> rfl

-- the TensorCore's buffer contents when the region is entered
variable (V : (c : Dev nD) → (b : Ref sig .tc) → Buf (Elt Ideal) ((c : Thread nD τ).loc b))

/-! ## The staged blocks, read in the arrays

A block's coordinate in its array is the block index times the block size plus the coordinate inside the block. -/

/-- Row p of the messages' block at point t is row 10000·t + p of the messages. -/
theorem messages_block (c : Dev nD) (t : Fin cfg1.N) (ht : t.val < 10) (p : Fin 10000) (k : Fin 16) :
    iblk1 (F := Ideal) V c 0 t (ix2 p k)
      = (V c main_v43 : S100000x16.Idx → EReal) (ix2 (⟨t.val * 10000 + p.val, by omega⟩ : Fin 100000) k) := by
  obtain ⟨e0, e1, -⟩ := blocks_of_point t
  show V c main_v43 (((cfg1.win 0).blk t).view.emb (ix2 p k)) = V c main_v43 (ix2 (⟨t.val * 10000 + p.val, by omega⟩ : Fin 100000) k)
  refine congrArg (V c main_v43) (funext fun a => Fin.ext ?_)
  match a with
  | ⟨0, _⟩ => show win1_0.index t (0 : Fin 2) * 10000 + 1 * p.val = t.val * 10000 + p.val; omega
  | ⟨1, _⟩ => show win1_0.index t (1 : Fin 2) * 16 + 1 * k.val = k.val; omega

/-- The bias row's block is the bias row. -/
theorem bias_block (c : Dev nD) (t : Fin cfg1.N) (k : Fin 16) :
    iblk1 (F := Ideal) V c 1 t (ix2 (0 : Fin 1) k) = (V c main_v44 : S1x16.Idx → EReal) (ix2 (0 : Fin 1) k) := by
  obtain ⟨-, -, e2, e3, -⟩ := blocks_of_point t
  show V c main_v44 (((cfg1.win 1).blk t).view.emb (ix2 (0 : Fin 1) k)) = V c main_v44 (ix2 (0 : Fin 1) k)
  refine congrArg (V c main_v44) (funext fun a => Fin.ext ?_)
  match a with
  | ⟨0, _⟩ => show win1_1.index t (0 : Fin 2) * 1 + 1 * 0 = 0; omega
  | ⟨1, _⟩ => show win1_1.index t (1 : Fin 2) * 16 + 1 * k.val = k.val; omega

/-- The weights' block is the weight matrix. -/
theorem weights_block (c : Dev nD) (t : Fin cfg1.N) (k : Fin 16) (q : Fin 64) :
    iblk1 (F := Ideal) V c 2 t (ix2 k q) = (V c main_arg4 : S16x64.Idx → EReal) (ix2 k q) := by
  obtain ⟨-, -, -, -, e4, e5, -⟩ := blocks_of_point t
  show V c main_arg4 (((cfg1.win 2).blk t).view.emb (ix2 k q)) = V c main_arg4 (ix2 k q)
  refine congrArg (V c main_arg4) (funext fun a => Fin.ext ?_)
  match a with
  | ⟨0, _⟩ => show win1_2.index t (0 : Fin 2) * 16 + 1 * k.val = k.val; omega
  | ⟨1, _⟩ => show win1_2.index t (1 : Fin 2) * 64 + 1 * q.val = q.val; omega

/-! ## From the blocks to the array -/

/-- What point t writes back is its block of the whole-array function. -/
theorem flushed_eq (c : Dev nD) (t : Fin cfg1.N) :
    (dat1 (F := Ideal) V c).flushed 3 t
      = ((cfg1.win 3).blk t).view.read (Elt Ideal) (Cert.Gcn.hidden (V c main_v43) (V c main_v44) (V c main_arg4)) := by
  show (cfg1.win 3).cut (grid1.coords t) ((dat1 V c).after 3 t) = _
  rw [after1_3]
  unfold out1_3
  rw [View.canon_unit_zero zero_offsets]
  simp only [View.ld_unit_zero (S := S10000x16) zero_offsets, View.ld_unit_zero (S := S1x16) zero_offsets,
    View.ld_unit_zero (S := S16x64) zero_offsets]
  have ht : t.val < 10 := lt_of_lt_of_eq (show t.val < grid1.N from t.isLt) N_1
  funext j
  obtain ⟨p, q, rfl⟩ : ∃ (p : Fin 10000) (q : Fin 64), j = ix2 p q := ⟨j 0, j 1, eq_ix2 j⟩
  have hrow : ((cfg1.win 3).blk t).view.emb (ix2 p q) = ix2 (⟨t.val * 10000 + p.val, by omega⟩ : Fin 100000) q := by
    obtain ⟨-, -, -, -, -, -, e6, e7⟩ := blocks_of_point t
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  show k1_pay1 (F := Ideal) (iblk1 V c 0 t) (iblk1 V c 1 t) (iblk1 V c 2 t) (ix2 p q)
      = Cert.Gcn.hidden (V c main_v43) (V c main_v44) (V c main_arg4) (((cfg1.win 3).blk t).view.emb (ix2 p q))
  rw [hrow, Cert.Gcn.hidden_ix2, stored_apply]
  unfold Cert.Gcn.hiddenAt
  refine Finset.sum_congr rfl fun k _ => ?_
  rw [messages_block V c t ht p k, bias_block V c t k, weights_block V c t k q]

/-- An entry of the result is in point t's block when each coordinate is in the block's range on its axis. -/
theorem mem_block (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v45).slice (win1_3.rect t)).set ↔ _
  rw [View.set_slice_whole, Rect.mem_set_unit]
  exact Iff.rfl

/-- Row r of the result is written back by point r / 10000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, htv⟩ : ∃ t : Fin cfg1.N, t.val = (i 0).val / 10000 :=
    ⟨⟨(i 0).val / 10000, by rw [show cfg1.N = grid1.N from rfl, N_1]; omega⟩, rfl⟩
  refine ⟨t, flush1_3 t, ?_⟩
  rw [mem_block]
  obtain ⟨-, -, -, -, -, -, e6, e7⟩ := blocks_of_point t
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- After the second region its result array is max(a + b, 0) · w of its three input arrays. -/
theorem activated (c : Dev nD) :
    (dat1 (F := Ideal) V c).arrAt 3 cfg1.N
      = (Cert.Gcn.hidden (V c main_v43) (V c main_v44) (V c main_arg4) : S100000x64.Idx → EReal) :=
  (dat1 (F := Ideal) V c).arrAt_eq_of_cover 3 (Cert.Gcn.hidden (V c main_v43) (V c main_v44) (V c main_arg4))
    (fun t _ => flushed_eq V c t) covered

end Cert.KernelIdeal.Activation

end
-- ==== Proof.Region2.lean ====
/-
  The third pallas_call, read as a value. Point t of its ten stages rows 10000·t … 10000·t + 9999 of the aggregated
  messages (64 columns) and the 1 × 64 bias row, adds the row to every staged row and writes the sum back to the same rows.
  So the result array after the region is `Gcn.biased` of the two input arrays as the region found them.
-/
import proofs.«133958_j19550691131664_1_alg».proof.Proof.Gen.KernelIdeal.Frame
import proofs.«133958_j19550691131664_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Offset

open Cert.KernelIdeal Cert.KernelIdeal.Gen Idealize.ShloMosaic Idealize.ShloMosaic.TcCoe Idealize.SL.Sem
open Idealize.ShloMosaic.ValueIdx
open Idealize.ShloMosaic.Pipeline (Dat)

-- the TensorCore's buffer contents when the region is entered
variable (V : (c : Dev nD) → (b : Ref sig .tc) → Buf (Elt Ideal) ((c : Thread nD τ).loc b))

/-- The zero offsets of a whole-block rectangle, as a constant function. -/
theorem offsets_zero : (![0, 0] : Fin 2 → Nat) = fun _ => 0 := funext fun a => by fin_cases a <;> rfl

/-- The body's sum at row p, column q: the staged entry plus the bias row's entry in that column. -/
theorem sum_ix2 (x0 : Vec Ideal S10000x64 .f32) (x1 : Vec Ideal S1x64 .f32) (p : Fin 10000) (q : Fin 64) :
    k2_pay1 (F := Ideal) x0 x1 (ix2 p q) = x0 (ix2 p q) + x1 (ix2 (0 : Fin 1) q) := by
  unfold k2_pay1
  rw [shapeCast_self, shapeCast_self, addf_apply, broadcastTo_1b_ab_apply]

/-- Which block of each array a point stages: rows 10000·t … of the messages and of the result, the whole bias row. -/
theorem blocks : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of point t's block is row 10000·t + p of the array. -/
theorem row_lt (t : Fin cfg2.N) (p : Fin 10000) : t.val * 10000 + p.val < 100000 := by
  have ht : t.val < 10 := Nat.lt_of_lt_of_eq t.isLt N_2
  have hp := p.isLt
  omega

/-- Where entry (p, q) of point t's result block sits in the result array. -/
theorem result_emb (t : Fin cfg2.N) (p : Fin 10000) (q : Fin 64) :
    ((cfg2.win 2).blk t).view.emb (ix2 p q) = (ix2 (⟨t.val * 10000 + p.val, row_lt t p⟩ : Fin 100000) q : S100000x64.Idx) := by
  obtain ⟨-, -, -, -, e4, e5⟩ := blocks t
  funext a; apply Fin.ext
  match a with
  | ⟨0, _⟩ => show win2_2.index t (0 : Fin 2) * 10000 + 1 * p.val = t.val * 10000 + p.val; omega
  | ⟨1, _⟩ => show win2_2.index t (1 : Fin 2) * 64 + 1 * q.val = q.val; omega

/-- Point t's staged block of the messages, entry (p, q): the array's entry (10000·t + p, q). -/
theorem rows_read (c : Dev nD) (t : Fin cfg2.N) (p : Fin 10000) (q : Fin 64) :
    iblk2 V c 0 t (ix2 p q) = V c main_v57 (ix2 (⟨t.val * 10000 + p.val, row_lt t p⟩ : Fin 100000) q) := by
  obtain ⟨e0, e1, -, -, -, -⟩ := blocks t
  show V c main_v57 (((cfg2.win 0).blk t).view.emb (ix2 p q)) = V c main_v57 _
  refine congrArg _ ?_
  funext a; apply Fin.ext
  match a with
  | ⟨0, _⟩ => show win2_0.index t (0 : Fin 2) * 10000 + 1 * p.val = t.val * 10000 + p.val; omega
  | ⟨1, _⟩ => show win2_0.index t (1 : Fin 2) * 64 + 1 * q.val = q.val; omega

/-- Every point stages the whole bias row. -/
theorem bias_read (c : Dev nD) (t : Fin cfg2.N) (q : Fin 64) :
    iblk2 V c 1 t (ix2 (0 : Fin 1) q) = V c main_v58 (ix2 (0 : Fin 1) q) := by
  obtain ⟨-, -, e2, e3, -, -⟩ := blocks t
  show V c main_v58 (((cfg2.win 1).blk t).view.emb (ix2 (0 : Fin 1) q)) = V c main_v58 _
  refine congrArg _ ?_
  funext a; apply Fin.ext
  match a with
  | ⟨0, _⟩ => show win2_1.index t (0 : Fin 2) * 1 + 1 * (0 : Fin 1).val = (0 : Fin 1).val; omega
  | ⟨1, _⟩ => show win2_1.index t (1 : Fin 2) * 64 + 1 * q.val = q.val; omega

/-- What point t writes back is its block of the biased messages. -/
theorem flushed_eq (c : Dev nD) (t : Fin cfg2.N) :
    (dat2 (F := Ideal) V c).flushed 2 t
      = ((cfg2.win 2).blk t).view.read (Elt Ideal) (Cert.Gcn.biased (V c main_v57) (V c main_v58)) := by
  show (cfg2.win 2).cut (grid2.coords t) ((dat2 V c).after 2 t) = _
  rw [after2_2]
  unfold out2_2
  rw [View.canon_unit_zero offsets_zero]
  simp only [View.ld_unit_zero (S := S10000x64) offsets_zero, View.ld_unit_zero (S := S1x64) offsets_zero]
  funext j
  obtain ⟨p, q, rfl⟩ : ∃ (p : Fin 10000) (q : Fin 64), j = ix2 p q := ⟨j 0, j 1, eq_ix2 j⟩
  show k2_pay1 (F := Ideal) (iblk2 V c 0 t) (iblk2 V c 1 t) (ix2 p q)
    = Cert.Gcn.biased (V c main_v57) (V c main_v58) (((cfg2.win 2).blk t).view.emb (ix2 p q))
  rw [sum_ix2, rows_read, bias_read, result_emb, Cert.Gcn.biased_ix2]
  rfl

/-- An index of the result array is in point t's block iff each coordinate is in the block's range on its axis. -/
theorem mem_block (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v59).slice (win2_2.rect t)).set ↔ _
  rw [View.set_slice_whole, Rect.mem_set_unit]
  exact Iff.rfl

/-- Row r of the result is written back by point r / 10000: the ten blocks tile the array. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 10000 < cfg2.N := Nat.lt_of_lt_of_eq (by omega) N_2.symm
  obtain ⟨-, -, -, -, e4, e5⟩ := blocks ⟨(i 0).val / 10000, ht⟩
  have e4' : win2_2.index ⟨(i 0).val / 10000, ht⟩ (0 : Fin 2) = (i 0).val / 10000 := e4
  refine ⟨⟨(i 0).val / 10000, ht⟩, flush2_2 _, ?_⟩
  rw [mem_block]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    omega

/-- After the third region its result array is its first input plus the bias row. -/
theorem offset (c : Dev nD) :
    (dat2 (F := Ideal) V c).arrAt 2 cfg2.N = (Cert.Gcn.biased (V c main_v57) (V c main_v58) : S100000x64.Idx → EReal) :=
  (dat2 (F := Ideal) V c).arrAt_eq_of_cover 2 (Cert.Gcn.biased (V c main_v57) (V c main_v58))
    (fun t _ => flushed_eq V c t) covered

end Cert.KernelIdeal.Offset

end
-- ==== Proof.RefStages.lean ====
/-
  The reference's three dense stages are the specification's. Its first `dot_general` is `Gcn.proj`; its bias add,
  clamp at zero and second `dot_general` are `Gcn.hidden` of the aggregated messages, the bias read as a 1 × 16 row
  and the weights; its last bias add is `Gcn.biased` of the aggregated messages and the bias read as a 1 × 64 row.
  Over the extended reals each pair is the same sum, or the same sum of two terms, index by index: the reference's
  two-step broadcast of a bias vector [d] → [1, d] → [N, d] reads entry j of the vector at (n, j), and so does the row
  [1, d] that a reshape of the vector gives, read at (0, j).
-/
import proofs.«133958_j19550691131664_1_alg».proof.Proof.Spec
import proofs.«133958_j19550691131664_1_alg».proof.Proof.RefRead
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Ref

open Idealize.ShloMosaic Idealize.ShloMosaic.ValueIdx
open Cert.ReferenceIdeal Cert.ReferenceIdeal.ReadP

/-- The reference's bias, broadcast over the rows in two steps, read at (n, k): entry k of the vector. -/
theorem bias16_ix2 (b1 : (⟨S16, .f32⟩ : BufTy).Contents (Elt Ideal)) (n : Fin 100000) (k : Fin 16) :
    val_main_v45 (F := Ideal) b1 (ix2 n k) = b1 (ix1 k) := by
  rw [val_main_v45_apply, val_main_v44_apply]
  refine congrArg b1 (funext fun a => Fin.ext ?_)
  match a with
  | ⟨0, _⟩ => rfl

/-- The same for the last bias, 64 columns. -/
theorem bias64_ix2 (b2 : (⟨S64, .f32⟩ : BufTy).Contents (Elt Ideal)) (n : Fin 100000) (j : Fin 64) :
    val_main_v86 (F := Ideal) b2 (ix2 n j) = b2 (ix1 j) := by
  rw [val_main_v86_apply, val_main_v85_apply]
  refine congrArg b2 (funext fun a => Fin.ext ?_)
  match a with
  | ⟨0, _⟩ => rfl

/-- The clamp's lower bound, a splat of the zero word, is 0 at every index. -/
theorem floor_apply (i : S100000x16.Idx) : val_main_call1_v0 (F := Ideal) i = 0 := by
  rw [val_main_call1_v0_apply, val_main_call1_cst_apply, Ideal.ofBits_def]
  exact Ideal.ofBits_zero_f32

/-- Bias then clamp at (n, k), over any aggregated messages a: max(a[n,k] + b1[k], 0). -/
theorem clamp_ix2 (x : (⟨S100000x128, .f32⟩ : BufTy).Contents (Elt Ideal)) (e : (⟨S2x3200000, .i32⟩ : BufTy).Contents (Elt Ideal))
    (w1 : (⟨S128x16, .f32⟩ : BufTy).Contents (Elt Ideal)) (b1 : (⟨S16, .f32⟩ : BufTy).Contents (Elt Ideal))
    (n : Fin 100000) (k : Fin 16) :
    val_main_v47 (F := Ideal) x e w1 b1 (ix2 n k) = max (val_main_v43 (F := Ideal) x e w1 (ix2 n k) + b1 (ix1 k)) 0 := by
  rw [val_main_v47_apply, val_main_v46_apply, bias16_ix2, floor_apply, Ideal.maximumf_def, Ideal.addf_def]

/-- The reference's first product is the specification's. -/
theorem proj_eq (x : (⟨S100000x128, .f32⟩ : BufTy).Contents (Elt Ideal)) (w : (⟨S128x16, .f32⟩ : BufTy).Contents (Elt Ideal)) :
    Cert.Gcn.proj x w = val_main_v7 (F := Ideal) x w := by
  funext i
  obtain ⟨n, j, rfl⟩ : ∃ (n : Fin 100000) (j : Fin 16), i = ix2 n j := ⟨i 0, i 1, eq_ix2 i⟩
  rw [val_main_v7_apply, Cert.Gcn.proj_ix2]
  unfold Cert.Gcn.projAt
  refine Finset.sum_congr rfl fun k _ => ?_
  have el : (ix2 n k : S100000x128.Idx) = lidx_main_v7 (ix2 n j) k :=
    funext fun a => Fin.ext (by match a with | ⟨0, _⟩ => rfl | ⟨1, _⟩ => rfl)
  have er : (ix2 k j : S128x16.Idx) = ridx_main_v7 (ix2 n j) k :=
    funext fun a => Fin.ext (by match a with | ⟨0, _⟩ => rfl | ⟨1, _⟩ => rfl)
  rw [el, er]

/-- Bias, clamp and second product: the specification over the reference's aggregated messages and the bias as a row. -/
theorem hidden_eq (x : (⟨S100000x128, .f32⟩ : BufTy).Contents (Elt Ideal)) (e : (⟨S2x3200000, .i32⟩ : BufTy).Contents (Elt Ideal))
    (w1 : (⟨S128x16, .f32⟩ : BufTy).Contents (Elt Ideal)) (b1 : (⟨S16, .f32⟩ : BufTy).Contents (Elt Ideal))
    (w2 : (⟨S16x64, .f32⟩ : BufTy).Contents (Elt Ideal)) (hrow : S16.ShapeCasts S1x16) :
    Cert.Gcn.hidden (val_main_v43 (F := Ideal) x e w1) (shapeCast S1x16 b1 hrow) w2
      = val_main_v48 (F := Ideal) x e w1 b1 w2 := by
  funext i
  obtain ⟨n, j, rfl⟩ : ∃ (n : Fin 100000) (j : Fin 64), i = ix2 n j := ⟨i 0, i 1, eq_ix2 i⟩
  rw [val_main_v48_apply, Cert.Gcn.hidden_ix2]
  unfold Cert.Gcn.hiddenAt
  refine Finset.sum_congr rfl fun k _ => ?_
  have el : lidx_main_v48 (ix2 n j) k = (ix2 n k : S100000x16.Idx) :=
    funext fun a => Fin.ext (by match a with | ⟨0, _⟩ => rfl | ⟨1, _⟩ => rfl)
  have er : ridx_main_v48 (ix2 n j) k = (ix2 k j : S16x64.Idx) :=
    funext fun a => Fin.ext (by match a with | ⟨0, _⟩ => rfl | ⟨1, _⟩ => rfl)
  rw [el, er, clamp_ix2, shapeCast_a_1a_apply]

/-- The last bias add: the specification over the reference's aggregated messages and the bias as a row. -/
theorem biased_eq (x : (⟨S100000x128, .f32⟩ : BufTy).Contents (Elt Ideal)) (e : (⟨S2x3200000, .i32⟩ : BufTy).Contents (Elt Ideal))
    (w1 : (⟨S128x16, .f32⟩ : BufTy).Contents (Elt Ideal)) (b1 : (⟨S16, .f32⟩ : BufTy).Contents (Elt Ideal))
    (w2 : (⟨S16x64, .f32⟩ : BufTy).Contents (Elt Ideal)) (b2 : (⟨S64, .f32⟩ : BufTy).Contents (Elt Ideal)) (hrow : S64.ShapeCasts S1x64) :
    Cert.Gcn.biased (val_main_v84 (F := Ideal) x e w1 b1 w2) (shapeCast S1x64 b2 hrow)
      = val_main_v87 (F := Ideal) x e w1 b1 w2 b2 := by
  funext i
  obtain ⟨n, j, rfl⟩ : ∃ (n : Fin 100000) (j : Fin 64), i = ix2 n j := ⟨i 0, i 1, eq_ix2 i⟩
  rw [val_main_v87_apply, bias64_ix2, Cert.Gcn.biased_ix2, Ideal.addf_def]
  unfold Cert.Gcn.biasedAt
  rw [shapeCast_a_1a_apply]

end Cert.Gcn.Ref

end
-- ==== Proof.KernelValue.lean ====
/-
  What the idealized kernel program leaves in its result buffer, as a function of its six arguments: the reference's
  last stage `val_main_v87` of them. The last boundary's contents at the result buffer are what the third region
  leaves (its first input plus the bias row), that input is layer two's aggregation of what the second region leaves
  (bias, clamp at zero, second weight matrix), whose first input is layer one's aggregation of what the first region
  leaves (the features times the first weight matrix) — each region read as its specification, each host stretch as
  the reference's own stages, every other buffer carried across the boundaries unchanged.
-/
import proofs.«133958_j19550691131664_1_alg».proof.Proof.Gen.KernelIdeal.Frame
import proofs.«133958_j19550691131664_1_alg».proof.Proof.HostChain
import proofs.«133958_j19550691131664_1_alg».proof.Proof.Region0
import proofs.«133958_j19550691131664_1_alg».proof.Proof.Region1
import proofs.«133958_j19550691131664_1_alg».proof.Proof.Region2
import proofs.«133958_j19550691131664_1_alg».proof.Proof.RefStages

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo
open Cert.ReferenceIdeal.ReadP

variable (m : (ℓ : Loc nD τ sig) → Buf (Elt Ideal) ℓ) (ρ : Dev nD → PrngReg) (c : Dev nD)

/-! ## At the first region's entry: the arguments as launched; sources, targets and edge weight of the edge list -/

theorem entry_arg0 : W3 m ρ c (Proc.devRef .tc main_arg0) = m ((c.tc : Thread nD τ).loc main_arg0) :=
  (HostChain.keep_0_2_arg0 (W2 m ρ c)).trans ((HostChain.keep_0_1_arg0 (W1 m ρ c)).trans (HostChain.keep_0_arg0 (W0 m ρ c)))
theorem entry_arg2 : W3 m ρ c (Proc.devRef .tc main_arg2) = m ((c.tc : Thread nD τ).loc main_arg2) :=
  (HostChain.keep_0_2_arg2 (W2 m ρ c)).trans ((HostChain.keep_0_1_arg2 (W1 m ρ c)).trans (HostChain.keep_0_arg2 (W0 m ρ c)))
theorem entry_arg3 : W3 m ρ c (Proc.devRef .tc main_arg3) = m ((c.tc : Thread nD τ).loc main_arg3) :=
  (HostChain.keep_0_2_arg3 (W2 m ρ c)).trans ((HostChain.keep_0_1_arg3 (W1 m ρ c)).trans (HostChain.keep_0_arg3 (W0 m ρ c)))
theorem entry_arg4 : W3 m ρ c (Proc.devRef .tc main_arg4) = m ((c.tc : Thread nD τ).loc main_arg4) :=
  (HostChain.keep_0_2_arg4 (W2 m ρ c)).trans ((HostChain.keep_0_1_arg4 (W1 m ρ c)).trans (HostChain.keep_0_arg4 (W0 m ρ c)))
theorem entry_arg5 : W3 m ρ c (Proc.devRef .tc main_arg5) = m ((c.tc : Thread nD τ).loc main_arg5) :=
  (HostChain.keep_0_2_arg5 (W2 m ρ c)).trans ((HostChain.keep_0_1_arg5 (W1 m ρ c)).trans (HostChain.keep_0_arg5 (W0 m ρ c)))

theorem entry_sources : W3 m ρ c (Proc.devRef .tc main_v3) = val_main_v3 (F := Ideal) (m ((c.tc : Thread nD τ).loc main_arg1)) :=
  (HostChain.keep_0_2_v3 (W2 m ρ c)).trans ((HostChain.keep_0_1_v3 (W1 m ρ c)).trans (HostChain.sources (W0 m ρ c)))

theorem entry_targets : W3 m ρ c (Proc.devRef .tc main_v6) = val_main_v6 (F := Ideal) (m ((c.tc : Thread nD τ).loc main_arg1)) :=
  (HostChain.keep_0_2_v6 (W2 m ρ c)).trans ((HostChain.keep_0_1_v6 (W1 m ρ c)).trans (HostChain.targets (W0 m ρ c)))

theorem entry_weight : W3 m ρ c (Proc.devRef .tc main_v30) = val_main_v38 (F := Ideal) (m ((c.tc : Thread nD τ).loc main_arg1)) :=
  HostChain.edge_weight (W2 m ρ c) (m ((c.tc : Thread nD τ).loc main_arg1))
    (HostChain.inv_sqrt_degree (W1 m ρ c) (m ((c.tc : Thread nD τ).loc main_arg1)) (HostChain.degree_pos (W0 m ρ c)) (HostChain.degree_rsqrt (W0 m ρ c))
      (HostChain.fallback (W0 m ρ c)))
    ((HostChain.keep_0_1_v3 (W1 m ρ c)).trans (HostChain.sources (W0 m ρ c)))
    ((HostChain.keep_0_1_v6 (W1 m ρ c)).trans (HostChain.targets (W0 m ρ c)))

/-! ## After the first region: the projected features; then layer one's aggregation and the bias row -/

theorem projected_features : W4 m ρ c (Proc.devRef .tc main_v31) = val_main_v7 (F := Ideal) (m ((c.tc : Thread nD τ).loc main_arg0)) (m ((c.tc : Thread nD τ).loc main_arg2)) := by
  refine (W4_arr m ρ c 2).trans ((Projection.projected (V3 m ρ) c).trans ?_)
  rw [show V3 m ρ c main_arg0 = (m ((c.tc : Thread nD τ).loc main_arg0)) from entry_arg0 m ρ c, show V3 m ρ c main_arg2 = (m ((c.tc : Thread nD τ).loc main_arg2)) from entry_arg2 m ρ c]
  exact Cert.Gcn.Ref.proj_eq _ _

theorem aggregated16 : W5 m ρ c (Proc.devRef .tc main_v43) = val_main_v43 (F := Ideal) (m ((c.tc : Thread nD τ).loc main_arg0)) (m ((c.tc : Thread nD τ).loc main_arg1)) (m ((c.tc : Thread nD τ).loc main_arg2)) :=
  HostChain.aggregate16 (W4 m ρ c) (m ((c.tc : Thread nD τ).loc main_arg0)) (m ((c.tc : Thread nD τ).loc main_arg1)) (m ((c.tc : Thread nD τ).loc main_arg2)) (projected_features m ρ c)
    ((W4_of_ne m ρ c main_v3 (by decide)).trans (entry_sources m ρ c))
    ((W4_of_ne m ρ c main_v6 (by decide)).trans (entry_targets m ρ c))
    ((W4_of_ne m ρ c main_v30 (by decide)).trans (entry_weight m ρ c))

theorem bias_row16 : W5 m ρ c (Proc.devRef .tc main_v44) = shapeCast S1x16 (m ((c.tc : Thread nD τ).loc main_arg3)) shapeCasts_S16_S1x16 :=
  (HostChain.bias_row16 (W4 m ρ c)).trans
    (congrArg (fun b => shapeCast S1x16 b shapeCasts_S16_S1x16) ((W4_of_ne m ρ c main_arg3 (by decide)).trans (entry_arg3 m ρ c)))

theorem weights2 : W5 m ρ c (Proc.devRef .tc main_arg4) = m ((c.tc : Thread nD τ).loc main_arg4) :=
  (HostChain.keep_1_arg4 (W4 m ρ c)).trans ((W4_of_ne m ρ c main_arg4 (by decide)).trans (entry_arg4 m ρ c))

/-! ## After the second region: the hidden features; then layer two's aggregation and the bias row -/

theorem hidden_features : W6 m ρ c (Proc.devRef .tc main_v45) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 3).trans ((Activation.activated (V5 m ρ) c).trans ?_)
  rw [show V5 m ρ c main_v43 = _ from aggregated16 m ρ c, show V5 m ρ c main_v44 = _ from bias_row16 m ρ c,
    show V5 m ρ c main_arg4 = _ from weights2 m ρ c]
  exact Cert.Gcn.Ref.hidden_eq _ _ _ _ _ _

theorem aggregated64 : W7 m ρ c (Proc.devRef .tc main_v57) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  HostChain.aggregate64 (W6 m ρ c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (hidden_features m ρ c)
    ((W6_of_ne m ρ c main_v3 (by decide)).trans ((HostChain.keep_1_v3 (W4 m ρ c)).trans
      ((W4_of_ne m ρ c main_v3 (by decide)).trans (entry_sources m ρ c))))
    ((W6_of_ne m ρ c main_v6 (by decide)).trans ((HostChain.keep_1_v6 (W4 m ρ c)).trans
      ((W4_of_ne m ρ c main_v6 (by decide)).trans (entry_targets m ρ c))))
    ((W6_of_ne m ρ c main_v30 (by decide)).trans ((HostChain.keep_1_v30 (W4 m ρ c)).trans
      ((W4_of_ne m ρ c main_v30 (by decide)).trans (entry_weight m ρ c))))

theorem bias_row64 : W7 m ρ c (Proc.devRef .tc main_v58) = shapeCast S1x64 (m ((c.tc : Thread nD τ).loc main_arg5)) shapeCasts_S64_S1x64 :=
  (HostChain.bias_row64 (W6 m ρ c)).trans
    (congrArg (fun b => shapeCast S1x64 b shapeCasts_S64_S1x64)
      ((W6_of_ne m ρ c main_arg5 (by decide)).trans ((HostChain.keep_1_arg5 (W4 m ρ c)).trans
        ((W4_of_ne m ρ c main_arg5 (by decide)).trans (entry_arg5 m ρ c)))))

/-! ## After the third region -/

/-- The result buffer at the last boundary is the reference's last stage of the launch contents of the arguments. -/
theorem result_eq :
    W8 m ρ c (Proc.devRef .tc main_v59)
      = val_main_v87 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (W8_arr m ρ c 2).trans ((Offset.offset (V7 m ρ) c).trans ?_)
  rw [show V7 m ρ c main_v57 = _ from aggregated64 m ρ c, show V7 m ρ c main_v58 = _ from bias_row64 m ρ c]
  exact Cert.Gcn.Ref.biased_eq _ _ _ _ _ _ _

end Cert.KernelIdeal.Result

end
-- ==== Proof.lean ====
/-
  The certificate of a two-layer graph convolution on 100000 nodes. From node features x (100000 × 128), an edge list
  (2 × 3200000), weights w1 (128 × 16), w2 (16 × 64) and bias rows b1 (16), b2 (64), both programs compute the same
  thing: a layer multiplies its input by its weight matrix, sums over the edges into each node (every node also its own
  neighbour) the neighbours' rows scaled by the inverse square roots of the two end points' degrees, and adds its bias
  row; between the two layers every entry is clamped below at zero. The kernel program does the two matrix products
  and the bias adds in three pipelined regions, ten blocks of 10000 rows each — x · w1; max(a + b1, 0) · w2; a + b2 —
  and the degrees, gathers and sums over the edges between them on the host. The reference does every stage on the host.

  Claimed: each of the three programs (the kernel as printed, the kernel and the reference over the extended reals)
  runs to its end from any memory, faulting nowhere, and leaves its six argument arrays as they were launched; the
  idealized kernel is the printed kernel's own text read over the extended reals, nothing rewritten; and over the
  extended reals — every operation exact, every change of format the identity — from memories that agree on the six
  arguments the kernel's result array and the reference's end equal, entry by entry.

  The law that joins the two sides: over the extended reals a matrix product taken one block of rows at a time, each
  block into a zero accumulator, is entry by entry the same sum over the contracted axis as the one whole product, and a
  bias row added block by block is the bias row added to the whole array. So each region leaves in its result array one
  whole-array function of the arrays it reads, the host stretches between the regions are the reference's own stages,
  and both results are ONE function of the six arguments: the reference's last stage of them. No finiteness of the
  inputs is used.
-/
import proofs.«133958_j19550691131664_1_alg».proof.Defs
import proofs.«133958_j19550691131664_1_alg».proof.Proof.Gen.Kernel
import proofs.«133958_j19550691131664_1_alg».proof.Proof.Gen.Kernel.Skeleton
import proofs.«133958_j19550691131664_1_alg».proof.Proof.Gen.Kernel.Launch
import proofs.«133958_j19550691131664_1_alg».proof.Proof.Gen.Kernel.Points
import proofs.«133958_j19550691131664_1_alg».proof.Proof.Gen.Kernel.Frame
import proofs.«133958_j19550691131664_1_alg».proof.Proof.Gen.KernelIdeal
import proofs.«133958_j19550691131664_1_alg».proof.Proof.Gen.KernelIdeal.Skeleton
import proofs.«133958_j19550691131664_1_alg».proof.Proof.Gen.KernelIdeal.Launch
import proofs.«133958_j19550691131664_1_alg».proof.Proof.Gen.KernelIdeal.Points
import proofs.«133958_j19550691131664_1_alg».proof.Proof.Gen.KernelIdeal.Frame
import proofs.«133958_j19550691131664_1_alg».proof.Proof.Gen.ReferenceIdeal
import proofs.«133958_j19550691131664_1_alg».proof.Proof.Gen.Pre_finite_inputs
import proofs.«133958_j19550691131664_1_alg».proof.Proof.KernelRun
import proofs.«133958_j19550691131664_1_alg».proof.Proof.KernelValue
import proofs.«133958_j19550691131664_1_alg».proof.Proof.RefRun
import proofs.«133958_j19550691131664_1_alg».proof.Proof.RefRead
import Idealize.ShloMosaic.Adequacy
import Idealize.ShloMosaic.Init

noncomputable section

namespace Cert.Proof

open Idealize.ShloMosaic Idealize.SL.Sem

/-! ## The three runs -/

/-- The kernel program as printed runs to its end and leaves its arguments as launched. -/
theorem frame_kernel : Cert.frame_Kernel := fun m ρ _ => Cert.Kernel.Gen.frame m ρ

/-- So does the kernel program over the extended reals. -/
theorem frame_kernel_ideal : Cert.frame_KernelIdeal := fun m ρ _ => Cert.KernelIdeal.Gen.frame m ρ

/-- So does the reference: its run names its result too, which a frame does not ask for. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Nothing was rewritten between the printed kernel and its reading over the extended reals. -/
theorem preserves : Cert.preserves_Kernel_KernelIdeal := trivial

/-! ## One function of the six arguments -/

/-- Over the extended reals the kernel's result array ends at the reference's last stage of the kernel's six arguments
    (the three regions read as whole-array functions, the host stretches as the reference's own stages), and the
    reference's at the same stage of its own arguments, which agree with the kernel's. -/
theorem algebraic : Cert.algebraic_KernelIdeal_ReferenceIdeal := by
  intro m ρ m' ρ' _ hagree
  refine ⟨fun c => Cert.ReferenceIdeal.ReadP.val_main_v87 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Result.result_eq m ρ c), (h c).2⟩)
      (Cert.KernelIdeal.Launched.run_result (F := Ideal) m ρ)
  · exact (θ_run Cert.ReferenceIdeal.defs _ _).mono
      (fun _ h c => ⟨by
        rw [(h c).1, Cert.ReferenceIdeal.ReadP.val_main_v87_eq, (hagree c).1, (hagree c).2.1, (hagree c).2.2.1,
          (hagree c).2.2.2.1, (hagree c).2.2.2.2.1, (hagree c).2.2.2.2.2], (h c).2⟩)
      (Cert.ReferenceIdeal.ValueP.run (F := Ideal) m' ρ')

/-! ## The certificate -/

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
